-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x256 : Shape := ⟨2, ![500000, 256]⟩
abbrev S63488 : Shape := ⟨1, ![63488]⟩
abbrev S_ : Shape := ⟨0, ![]⟩

class Facts : Prop where
  bcast_S_S500000x256 : S_.BroadcastsInDim S500000x256 (![] : Fin 0 → Fin S500000x256.rank)
  reducesTo_S500000x256_S_d0_1 : S500000x256.ReducesTo [0, 1] S_
  h_S_ : 0 < S_.numel
  bcast_S_S63488 : S_.BroadcastsInDim S63488 (![] : Fin 0 → Fin S63488.rank)
  reducesTo_S63488_S_d0 : S63488.ReducesTo [0] S_

variable [Facts]

def fn {F : FTy → Type} [FloatOps F] (main_arg0 : FVec F S500000x256 .f32) (main_arg1 : FVec F S63488 .f32) (main_arg2 : IVec S63488 32) (main_arg3 : IVec S63488 32) : IVec S_ 1 :=
  let main_v0 : FVec F S500000x256 .f32 := Host.absf main_arg0
  let main_cst : FVec F S_ .f32 := constant S_ .f32 0x7F800000#32
  let main_v1 : FVec F S500000x256 .f32 := broadcastInDim S500000x256 ![] bcast_S_S500000x256 main_cst
  let main_v2 : IVec S500000x256 1 := cmpf .olt main_v0 main_v1
  let main_c : IVec S_ 1 := constantI S_ 1 1#1
  let main_v3 : IVec S_ 1 := (fun x v => Host.reduce IntOp.andi x v reducesTo_S500000x256_S_d0_1 h_S_) main_v2 main_c
  let main_v4 : FVec F S63488 .f32 := Host.absf main_arg1
  let main_cst_0 : FVec F S_ .f32 := constant S_ .f32 0x7F800000#32
  let main_v5 : FVec F S63488 .f32 := broadcastInDim S63488 ![] bcast_S_S63488 main_cst_0
  let main_v6 : IVec S63488 1 := cmpf .olt main_v4 main_v5
  let main_c_1 : IVec S_ 1 := constantI S_ 1 1#1
  let main_v7 : IVec S_ 1 := (fun x v => Host.reduce IntOp.andi x v reducesTo_S63488_S_d0 h_S_) main_v6 main_c_1
  let main_v8 : IVec S_ 1 := andi main_v3 main_v7
  main_v8
-- ==== Kernel.lean ====
abbrev S500000x256 : Shape := ⟨2, ![500000, 256]⟩
abbrev S63488 : Shape := ⟨1, ![63488]⟩
abbrev S_ : Shape := ⟨0, ![]⟩
abbrev S256x256 : Shape := ⟨2, ![256, 256]⟩
abbrev S63488x1 : Shape := ⟨2, ![63488, 1]⟩
abbrev S63488x2 : Shape := ⟨2, ![63488, 2]⟩
abbrev S5000x256 : Shape := ⟨2, ![5000, 256]⟩

abbrev nBuf : Space → Nat
  | .hbm => 26
  | .vmem => 5
  | .smem => 0
  | _ => 0

abbrev bufTy : (tb : Table) → Fin (tcTables nBuf tb) → BufTy
  | .hbm, ⟨0, _⟩ => ⟨S500000x256, .f32⟩
  | .hbm, ⟨1, _⟩ => ⟨S63488, .f32⟩
  | .hbm, ⟨2, _⟩ => ⟨S63488, .i32⟩
  | .hbm, ⟨3, _⟩ => ⟨S63488, .i32⟩
  | .hbm, ⟨4, _⟩ => ⟨S_, .f32⟩
  | .hbm, ⟨5, _⟩ => ⟨S256x256, .f32⟩
  | .hbm, ⟨6, _⟩ => ⟨S_, .i32⟩
  | .hbm, ⟨7, _⟩ => ⟨S63488, .i32⟩
  | .hbm, ⟨8, _⟩ => ⟨S63488, .i1⟩
  | .hbm, ⟨9, _⟩ => ⟨S_, .i32⟩
  | .hbm, ⟨10, _⟩ => ⟨S63488, .i32⟩
  | .hbm, ⟨11, _⟩ => ⟨S63488, .i32⟩
  | .hbm, ⟨12, _⟩ => ⟨S63488, .i32⟩
  | .hbm, ⟨13, _⟩ => ⟨S_, .i32⟩
  | .hbm, ⟨14, _⟩ => ⟨S63488, .i32⟩
  | .hbm, ⟨15, _⟩ => ⟨S63488, .i1⟩
  | .hbm, ⟨16, _⟩ => ⟨S_, .i32⟩
  | .hbm, ⟨17, _⟩ => ⟨S63488, .i32⟩
  | .hbm, ⟨18, _⟩ => ⟨S63488, .i32⟩
  | .hbm, ⟨19, _⟩ => ⟨S63488, .i32⟩
  | .hbm, ⟨20, _⟩ => ⟨S63488x1, .i32⟩
  | .hbm, ⟨21, _⟩ => ⟨S63488x1, .i32⟩
  | .hbm, ⟨22, _⟩ => ⟨S63488x2, .i32⟩
  | .hbm, ⟨23, _⟩ => ⟨S256x256, .f32⟩
  | .hbm, ⟨24, _⟩ => ⟨S256x256, .bf16⟩
  | .hbm, ⟨25, _⟩ => ⟨S500000x256, .f32⟩
  | .local _ .vmem, ⟨0, _⟩ => ⟨S5000x256, .f32⟩
  | .local _ .vmem, ⟨1, _⟩ => ⟨S5000x256, .f32⟩
  | .local _ .vmem, ⟨2, _⟩ => ⟨S256x256, .bf16⟩
  | .local _ .vmem, ⟨3, _⟩ => ⟨S5000x256, .f32⟩
  | .local _ .vmem, ⟨4, _⟩ => ⟨S5000x256, .f32⟩
  | _, _ => ⟨S500000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_1 : Ref sig .tc := ⟨.hbm, 13, rfl⟩
abbrev main_v6 : Ref sig .tc := ⟨.hbm, 14, rfl⟩
abbrev main_v7 : Ref sig .tc := ⟨.hbm, 15, rfl⟩
abbrev main_c_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S256x256 : S_.BroadcastsInDim S256x256 (![] : Fin 0 → Fin S256x256.rank)
  bcast_S_S63488 : S_.BroadcastsInDim S63488 (![] : Fin 0 → Fin S63488.rank)
  bcast_S63488_S63488x1_0 : S63488.BroadcastsInDim S63488x1 (![0] : Fin 1 → Fin S63488x1.rank)
  concatenates_S63488x1_S63488x1_S63488x2_d1 : Shape.Concatenates [S63488x1, S63488x1] S63488x2 1
  bitsLt_bf16_f32 : FTy.bits .bf16 < FTy.bits .f32
  inb_S5000x256_S5000x256_0_0 : ∀ a, (![0, 0] : Fin 2 → Nat) a + S5000x256.size a ≤ S5000x256.size a
  h_S5000x256 : 0 < S5000x256.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  scatter_S256x256_S63488x2_S63488_n_01_01_1_wf : ScatterDims.WF S256x256 S63488x2 S63488 [] [0, 1] [0, 1] 1
  dot_S5000x256_S256x256_S5000x256_1_0_0_1_n_n_wf : DotDims.WF S5000x256 S256x256 S5000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S500000x256.size a
  hwx0_0 : ∀ i : grid0.Coords, EltTy.bits .f32 = 32 ∨ (Rect.block (s := S500000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S500000x256.size a
  hwx0_2 : ∀ i : grid0.Coords, EltTy.bits .f32 = 32 ∨ (Rect.block (s := S500000x256) S5000x256.size (cc0_transform_2 i) (hinb0_2 i)).WholeWords (EltTy.packing .f32)

variable [Facts₀]

def scatter_S256x256_S63488x2_S63488_n_01_01_1 : ScatterDims S256x256 S63488x2 S63488 where
  updateWindowDims := []
  insertedWindowDims := [0, 1]
  scatterDimsToOperandDims := [0, 1]
  indexVectorDim := 1
  wf := scatter_S256x256_S63488x2_S63488_n_01_01_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S500000x256 : Shape := ⟨2, ![500000, 256]⟩
abbrev S63488 : Shape := ⟨1, ![63488]⟩
abbrev S_ : Shape := ⟨0, ![]⟩
abbrev S256x256 : Shape := ⟨2, ![256, 256]⟩
abbrev S63488x1 : Shape := ⟨2, ![63488, 1]⟩
abbrev S63488x2 : Shape := ⟨2, ![63488, 2]⟩

abbrev nBuf : Space → Nat
  | .hbm => 25
  | .vmem => 0
  | .smem => 0
  | _ => 0

abbrev bufTy : (tb : Table) → Fin (tcTables nBuf tb) → BufTy
  | .hbm, ⟨0, _⟩ => ⟨S500000x256, .f32⟩
  | .hbm, ⟨1, _⟩ => ⟨S63488, .f32⟩
  | .hbm, ⟨2, _⟩ => ⟨S63488, .i32⟩
  | .hbm, ⟨3, _⟩ => ⟨S63488, .i32⟩
  | .hbm, ⟨4, _⟩ => ⟨S_, .f32⟩
  | .hbm, ⟨5, _⟩ => ⟨S256x256, .f32⟩
  | .hbm, ⟨6, _⟩ => ⟨S_, .i32⟩
  | .hbm, ⟨7, _⟩ => ⟨S63488, .i32⟩
  | .hbm, ⟨8, _⟩ => ⟨S63488, .i1⟩
  | .hbm, ⟨9, _⟩ => ⟨S_, .i32⟩
  | .hbm, ⟨10, _⟩ => ⟨S63488, .i32⟩
  | .hbm, ⟨11, _⟩ => ⟨S63488, .i32⟩
  | .hbm, ⟨12, _⟩ => ⟨S63488, .i32⟩
  | .hbm, ⟨13, _⟩ => ⟨S_, .i32⟩
  | .hbm, ⟨14, _⟩ => ⟨S63488, .i32⟩
  | .hbm, ⟨15, _⟩ => ⟨S63488, .i1⟩
  | .hbm, ⟨16, _⟩ => ⟨S_, .i32⟩
  | .hbm, ⟨17, _⟩ => ⟨S63488, .i32⟩
  | .hbm, ⟨18, _⟩ => ⟨S63488, .i32⟩
  | .hbm, ⟨19, _⟩ => ⟨S63488, .i32⟩
  | .hbm, ⟨20, _⟩ => ⟨S63488x1, .i32⟩
  | .hbm, ⟨21, _⟩ => ⟨S63488x1, .i32⟩
  | .hbm, ⟨22, _⟩ => ⟨S63488x2, .i32⟩
  | .hbm, ⟨23, _⟩ => ⟨S256x256, .f32⟩
  | .hbm, ⟨24, _⟩ => ⟨S500000x256, .f32⟩
  | _, _ => ⟨S500000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_1 : Ref sig .tc := ⟨.hbm, 13, rfl⟩
abbrev main_v6 : Ref sig .tc := ⟨.hbm, 14, rfl⟩
abbrev main_v7 : Ref sig .tc := ⟨.hbm, 15, rfl⟩
abbrev main_c_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]

class Facts₀ : Prop where
  bcast_S_S256x256 : S_.BroadcastsInDim S256x256 (![] : Fin 0 → Fin S256x256.rank)
  bcast_S_S63488 : S_.BroadcastsInDim S63488 (![] : Fin 0 → Fin S63488.rank)
  bcast_S63488_S63488x1_0 : S63488.BroadcastsInDim S63488x1 (![0] : Fin 1 → Fin S63488x1.rank)
  concatenates_S63488x1_S63488x1_S63488x2_d1 : Shape.Concatenates [S63488x1, S63488x1] S63488x2 1
  scatter_S256x256_S63488x2_S63488_n_01_01_1_wf : ScatterDims.WF S256x256 S63488x2 S63488 [] [0, 1] [0, 1] 1
  dot_S500000x256_S256x256_S500000x256_1_0_0_1_n_n_wf : DotDims.WF S500000x256 S256x256 S500000x256 [1] [0] [0] [1] [] []

variable [Facts₀]

def scatter_S256x256_S63488x2_S63488_n_01_01_1 : ScatterDims S256x256 S63488x2 S63488 where
  updateWindowDims := []
  insertedWindowDims := [0, 1]
  scatterDimsToOperandDims := [0, 1]
  indexVectorDim := 1
  wf := scatter_S256x256_S63488x2_S63488_n_01_01_1_wf
def dot_S500000x256_S256x256_S500000x256_1_0_0_1_n_n : DotDims S500000x256 S256x256 S500000x256 where
  lhsContracting := [1]
  rhsContracting := [0]
  lhsNonContracting := [0]
  rhsNonContracting := [1]
  lhsBatch := []
  rhsBatch := []
  wf := dot_S500000x256_S256x256_S500000x256_1_0_0_1_n_n_wf

class Facts : Prop extends Facts₀ where

variable [Facts]
-- ==== Proof.MatSpec.lean ====
/-
  The product of a tall matrix with a square one, entry by entry.

  For `X` of 500000 rows and 256 columns and a square `W` of side 256, the entry of `X · W` in row `r` and
  column `c` is the sum, over the 256 shared coordinates `k`, of `X[r, k] · W[k, c]`. Over the extended reals
  this finite sum is a fixed term of the entries: it does not depend on the order in which the summands are met,
  nor on how the rows of `X` are grouped into blocks, because row `r` of the product reads row `r` of `X` only.
  Both programs of this certificate end holding exactly this function of their arguments.
-/
import Idealize.ShloMosaic.PureOps.Ideal
import Idealize.ShloMosaic.Lib.ValueIdx

noncomputable section

namespace Cert.MatSpec

open Idealize.ShloMosaic Idealize.ShloMosaic.ValueIdx

/-- `(X · W)[r, c] = Σ_k X[r, k] · W[k, c]`, as a function of the index `i = (r, c)`. -/
def prod (X : (⟨2, ![500000, 256]⟩ : Shape).Idx → EReal) (W : (⟨2, ![256, 256]⟩ : Shape).Idx → EReal) :
    (⟨2, ![500000, 256]⟩ : Shape).Idx → EReal :=
  fun i => ∑ k : Fin 256, X (ix2 (i 0) k) * W (ix2 k (i 1))

/-- The entry at `i` is determined by row `i 0` of `X` and column `i 1` of `W`: any 256 pairs of factors that
    agree with those, coordinate by coordinate, have the same sum of products. -/
theorem prod_eq_of_factors (X : (⟨2, ![500000, 256]⟩ : Shape).Idx → EReal) (W : (⟨2, ![256, 256]⟩ : Shape).Idx → EReal)
    (i : (⟨2, ![500000, 256]⟩ : Shape).Idx) (L R : Fin 256 → EReal)
    (hL : ∀ k, L k = X (ix2 (i 0) k)) (hR : ∀ k, R k = W (ix2 k (i 1))) :
    ∑ k : Fin 256, L k * R k = prod X W i := by
  unfold prod
  exact Finset.sum_congr rfl fun k _ => by rw [hL k, hR k]

end Cert.MatSpec

end
-- ==== Proof.BlockProduct.lean ====
/-
  What the kernel body computes on one block, entry by entry.

  The body loads a block `x` of 5000 rows of `X` and the whole of `W`, changes their float format (which at the
  extended reals changes nothing), and multiplies them into a zero accumulator. So the entry of its result in row `p`
  and column `q` is `Σ_k x[p, k] · w[k, q]` over the 256 shared coordinates: the contraction index of the product has
  one axis of extent 256, and the two operand indices at output index `(p, q)` and contraction coordinate `k` are
  `(p, k)` and `(k, q)`. If the block's row `p` is row `r` of `X` and `w` is `W`, that is the entry `(r, q)` of `X · W`.
-/
import proofs.«100735_j35381940584576_1_alg».proof.Proof.Gen.KernelIdeal.Skeleton
import proofs.«100735_j35381940584576_1_alg».proof.Proof.MatSpec
import Idealize.ShloMosaic.Lib.ValueIdx
import Idealize.ShloMosaic.Lib.Pipeline.Value
import Idealize.ShloMosaic.PureOps.Ideal.Laws

noncomputable section

namespace Cert.KernelIdeal.BlockProduct

open Cert.KernelIdeal Cert.KernelIdeal.Gen Idealize.ShloMosaic Idealize.ShloMosaic.ValueIdx

/-! ## The operand indices of the block product -/

/-- The left operand's row is the output's row. -/
theorem lhs_row (i : S5000x256.Idx) (q : dot_S5000x256_S256x256_S5000x256_1_0_0_1_n_n.contr.Idx) :
    (dot_S5000x256_S256x256_S5000x256_1_0_0_1_n_n.lhsIdx i q 0).val = (i 0).val := by
  unfold DotDims.lhsIdx
  rw [dif_neg (show ¬(0 : Fin S5000x256.rank) ∈ dot_S5000x256_S256x256_S5000x256_1_0_0_1_n_n.lhsBatch by decide), dif_pos (show (0 : Fin S5000x256.rank) ∈ dot_S5000x256_S256x256_S5000x256_1_0_0_1_n_n.lhsNonContracting by decide)]
  rfl
/-- The left operand's column is the contraction coordinate. -/
theorem lhs_col (i : S5000x256.Idx) (q : dot_S5000x256_S256x256_S5000x256_1_0_0_1_n_n.contr.Idx) :
    (dot_S5000x256_S256x256_S5000x256_1_0_0_1_n_n.lhsIdx i q 1).val = (q ⟨0, by decide⟩).val :=
  dot_S5000x256_S256x256_S5000x256_1_0_0_1_n_n.lhsIdx_val_of_single rfl i q
/-- The right operand's row is the contraction coordinate. -/
theorem rhs_row (i : S5000x256.Idx) (q : dot_S5000x256_S256x256_S5000x256_1_0_0_1_n_n.contr.Idx) :
    (dot_S5000x256_S256x256_S5000x256_1_0_0_1_n_n.rhsIdx i q 0).val = (q ⟨0, by decide⟩).val :=
  dot_S5000x256_S256x256_S5000x256_1_0_0_1_n_n.rhsIdx_val_of_single rfl i q
/-- The right operand's column is the output's column. -/
theorem rhs_col (i : S5000x256.Idx) (q : dot_S5000x256_S256x256_S5000x256_1_0_0_1_n_n.contr.Idx) :
    (dot_S5000x256_S256x256_S5000x256_1_0_0_1_n_n.rhsIdx i q 1).val = (i 1).val := by
  unfold DotDims.rhsIdx
  rw [dif_neg (show ¬(1 : Fin S256x256.rank) ∈ dot_S5000x256_S256x256_S5000x256_1_0_0_1_n_n.rhsBatch by decide), dif_pos (show (1 : Fin S256x256.rank) ∈ dot_S5000x256_S256x256_S5000x256_1_0_0_1_n_n.rhsNonContracting by decide)]
  rfl

/-! ## The body's result at an index -/

/-- The body's stored value at `j = (p, q)`: the sum over `k` of the loaded block's `(p, k)` times the loaded
    matrix's `(k, q)`. The two format changes are the identity on extended reals and the accumulator is zero. -/
theorem pay_apply (x0 : Vec Ideal S5000x256 .f32) (x1 : Vec Ideal S256x256 .bf16) (j : S5000x256.Idx) :
    k0_pay1 (F := Ideal) x0 x1 j = ∑ k : Fin 256, x0 (ix2 (j 0) k) * x1 (ix2 k (j 1)) := by
  unfold k0_pay1
  simp only [matmul]
  rw [Ideal.matmul_constant_zero_apply, ← Equiv.sum_comp (contrEquiv1 dot_S5000x256_S256x256_S5000x256_1_0_0_1_n_n 256 rfl rfl).symm]
  refine Finset.sum_congr rfl fun k _ => ?_
  have hk := contrEquiv1_symm_val dot_S5000x256_S256x256_S5000x256_1_0_0_1_n_n 256 rfl rfl k
  have el : dot_S5000x256_S256x256_S5000x256_1_0_0_1_n_n.lhsIdx j ((contrEquiv1 dot_S5000x256_S256x256_S5000x256_1_0_0_1_n_n 256 rfl rfl).symm k) = ix2 (j 0) k := funext fun a => Fin.ext (by
    match a with
    | ⟨0, _⟩ => exact lhs_row _ _
    | ⟨1, _⟩ => exact (lhs_col _ _).trans hk)
  have er : dot_S5000x256_S256x256_S5000x256_1_0_0_1_n_n.rhsIdx j ((contrEquiv1 dot_S5000x256_S256x256_S5000x256_1_0_0_1_n_n 256 rfl rfl).symm k) = ix2 k (j 1) := funext fun a => Fin.ext (by
    match a with
    | ⟨0, _⟩ => exact (rhs_row _ _).trans hk
    | ⟨1, _⟩ => exact rhs_col _ _)
  rw [el, er, shapeCast_self]
  rfl

/-- Read against the whole product: when row `j 0` of the block is row `i 0` of `X`, the loaded matrix is `W` on
    column `j 1 = i 1`, the body's entry at `j` is the entry of `X · W` at `i`. -/
theorem pay_eq_prod (X : Vec Ideal S500000x256 .f32) (W : Vec Ideal S256x256 .bf16)
    (x0 : Vec Ideal S5000x256 .f32) (x1 : Vec Ideal S256x256 .bf16) (j : S5000x256.Idx) (i : S500000x256.Idx)
    (h0 : ∀ k : Fin 256, x0 (ix2 (j 0) k) = X (ix2 (i 0) k))
    (h1 : ∀ k : Fin 256, x1 (ix2 k (j 1)) = W (ix2 k (i 1))) :
    k0_pay1 (F := Ideal) x0 x1 j = MatSpec.prod X W i :=
  (pay_apply x0 x1 j).trans (MatSpec.prod_eq_of_factors X W i _ _ h0 h1)

end Cert.KernelIdeal.BlockProduct

end
-- ==== Proof.KernelValue.lean ====
/-
  The kernel's result array is the product `X · W'`, where `W'` is the matrix the host wrote before the call.

  The call runs the body at 100 grid points. Point `t` fetches rows `5000·t … 5000·t + 4999` of `X` (all 256
  columns), the whole of `W'`, and writes back the same rows of the result. Entry `(p, q)` of what point `t` writes
  is `Σ_k x[p, k] · w[k, q]` of its two loaded blocks, and the block's row `p` is row `5000·t + p` of `X`, so this
  is the entry `(5000·t + p, q)` of `X · W'`: every point writes back its own rows of one and the same whole-array
  function. Row `r` of the result lies in the block of point `r / 5000`, so the blocks cover the array, and the array
  after the run is `X · W'` everywhere.
-/
import proofs.«100735_j35381940584576_1_alg».proof.Proof.Gen.KernelIdeal.Value
import proofs.«100735_j35381940584576_1_alg».proof.Proof.BlockProduct

noncomputable section

namespace Cert.KernelIdeal.MatValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem origin_zero : (![0, 0] : Fin 2 → Nat) = fun _ => 0 := funext fun a => by fin_cases a <;> rfl

/-- The block indices over the grid: at point `t` the windows of `X` and of the result sit at block row `t`, block
    column `0`; the window of the square matrix sits at block `(0, 0)` always. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of `X · W'`, with `X` and `W'` the arrays as the call finds them. -/
theorem flushed_eq (c : Dev nD) (t : Fin cfg0.N) :
    (dats m 0 c).flushed 2 t
      = ((cfg0.win 2).blk t).view.read (Elt Ideal) (MatSpec.prod (V m c main_arg0) (V m c main_v15)) := by
  rw [Value.flushed2]
  unfold out0_2
  rw [View.canon_unit_zero origin_zero]
  simp only [View.ld_unit_zero (S := S5000x256) origin_zero, View.ld_unit_zero (S := S256x256) origin_zero]
  obtain ⟨e0, e1, e2, e3, e4, e5⟩ := block_index t
  funext j
  show k0_pay1 (iblk m c 0 t) (iblk m c 1 t) j
      = MatSpec.prod (V m c main_arg0) (V m c main_v15) (((cfg0.win 2).blk t).view.emb j)
  refine BlockProduct.pay_eq_prod (V m c main_arg0) (V m c main_v15) (iblk m c 0 t) (iblk m c 1 t) j
    (((cfg0.win 2).blk t).view.emb j) (fun k => ?_) (fun k => ?_)
  · show V m c main_arg0 (((cfg0.win 0).blk t).view.emb (ix2 (j 0) k))
        = V m c main_arg0 (ix2 ((((cfg0.win 2).blk t).view.emb j) 0) k)
    refine congrArg (V m c main_arg0) (funext fun a => Fin.ext ?_)
    match a with
    | ⟨0, _⟩ =>
      show win0_0.index t (0 : Fin 2) * 5000 + 1 * (j 0).val = win0_2.index t (0 : Fin 2) * 5000 + 1 * (j 0).val
      omega
    | ⟨1, _⟩ =>
      show win0_0.index t (1 : Fin 2) * 256 + 1 * k.val = k.val
      omega
  · show V m c main_v15 (((cfg0.win 1).blk t).view.emb (ix2 k (j 1)))
        = V m c main_v15 (ix2 k ((((cfg0.win 2).blk t).view.emb j) 1))
    refine congrArg (V m c main_v15) (funext fun a => Fin.ext ?_)
    match a with
    | ⟨0, _⟩ =>
      show win0_1.index t (0 : Fin 2) * 256 + 1 * k.val = k.val
      omega
    | ⟨1, _⟩ =>
      show win0_1.index t (1 : Fin 2) * 256 + 1 * (j 1).val = win0_2.index t (1 : Fin 2) * 256 + 1 * (j 1).val
      omega

/-- An index of the result array is in point `t`'s block iff each coordinate is in the block's range on its axis. -/
theorem mem_block (t : Fin cfg0.N) (i : S500000x256.Idx) :
    i ∈ ((cfg0.win 2).blk t).view.set ↔ ∀ a : Fin 2, win0_2.index t a * S5000x256.size a ≤ (i a).val
      ∧ (i a).val < win0_2.index t a * S5000x256.size a + S5000x256.size a := by
  show i ∈ ((View.whole main_v16).slice (win0_2.rect t)).set ↔ _
  rw [View.set_slice_whole, Rect.mem_set_unit]
  exact Iff.rfl

/-- Every index of the result array is in some point's block: row `r` is written by point `r / 5000`. -/
theorem covered (i : S500000x256.Idx) :
    ∃ t : Fin cfg0.N, (cfg0.win 2).flush t = true ∧ i ∈ ((cfg0.win 2).blk t).view.set := by
  have hi0 : (i 0).val < 500000 := idx2_lt0 i
  have hi1 : (i 1).val < 256 := idx2_lt1 i
  have ht : (Fin.cast N_0.symm ⟨(i 0).val / 5000, by omega⟩ : Fin cfg0.N).val = (i 0).val / 5000 := rfl
  obtain ⟨-, -, -, -, e4, e5⟩ := block_index (Fin.cast N_0.symm ⟨(i 0).val / 5000, by omega⟩)
  refine ⟨Fin.cast N_0.symm ⟨(i 0).val / 5000, by omega⟩, flush0_2 _, ?_⟩
  rw [mem_block]
  intro a
  match a with
  | ⟨0, _⟩ =>
    show win0_2.index (Fin.cast N_0.symm ⟨(i 0).val / 5000, by omega⟩) (0 : Fin 2) * 5000 ≤ (i 0).val
      ∧ (i 0).val < win0_2.index (Fin.cast N_0.symm ⟨(i 0).val / 5000, by omega⟩) (0 : Fin 2) * 5000 + 5000
    omega
  | ⟨1, _⟩ =>
    show win0_2.index (Fin.cast N_0.symm ⟨(i 0).val / 5000, by omega⟩) (1 : Fin 2) * 256 ≤ (i 1).val
      ∧ (i 1).val < win0_2.index (Fin.cast N_0.symm ⟨(i 0).val / 5000, by omega⟩) (1 : Fin 2) * 256 + 256
    omega

/-- The result array after the run is `X · W'`. -/
theorem final (c : Dev nD) :
    (dats m 0 c).arrAt 2 cfg0.N = MatSpec.prod (V m c main_arg0) (V m c main_v15) :=
  (dats m 0 c).arrAt_eq_of_cover 2 _ (fun t _ => flushed_eq m c t) covered

/-- The kernel's run, read: the result is `X · W'` of the launch contents of `X`, and the arguments are unchanged. -/
theorem run : θ_run defs (onTc (τ := τ) (main (F := Ideal))) ⟨m, fun _ => 0, ρ⟩ fun r => ∀ c : Dev nD,
      r.2.mem ((c : Thread nD τ).loc main_v16)
        = MatSpec.prod (m ((c : Thread nD τ).loc main_arg0)) (V m c main_v15)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((final m c).trans (by rw [V_main_arg0])), (h c).2⟩)
    (Value.run_blocks m ρ)

end Cert.KernelIdeal.MatValue

end
-- ==== Proof.Weights.lean ====
/-
  The matrix the kernel multiplies by is the matrix the reference multiplies by.

  Before the call the kernel's host code builds the square matrix exactly as the reference does — a zero matrix with
  the weights scattered into it at the (wrapped) row and column indices, the same operations on the same arguments in
  the same order — and then changes its float format, which on extended reals is the identity. So the array the call
  finds is the reference's scatter stage of the same arguments.
-/
import proofs.«100735_j35381940584576_1_alg».proof.Proof.Gen.KernelIdeal.Frame
import proofs.«100735_j35381940584576_1_alg».proof.Proof.Gen.ReferenceIdeal.Read
import Idealize.ShloMosaic.Lib.StableHlo.Run

noncomputable section

namespace Cert.KernelIdeal.Weights

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- A change of float format is the identity on extended reals, whatever the array. -/
theorem truncf_bf16_id {s : Shape} (A : FVec Ideal s .f32) (h : FTy.bits .bf16 < FTy.bits .f32) :
    (truncf .bf16 A h : s.Idx → EReal) = A := rfl

/-- A scatter is a function of its dimension record, start matrix, index array and updates: equal arguments give
    equal results. -/
theorem scatter_congr {s si u : Shape} {w : Nat} (d d' : ScatterDims s si u) (f : EReal → EReal → EReal)
    (x x' : s.Idx → EReal) (ix ix' : IVec si w) (up up' : u.Idx → EReal)
    (hd : d = d') (hx : x = x') (hi : ix = ix') (hu : up = up') :
    Host.scatter d f x ix up = Host.scatter d' f x' ix' up' := by
  subst hd hx hi hu; rfl

set_option maxHeartbeats 2000000 in
/-- The square matrix as the call finds it is the reference's scatter stage of the launch contents of the weights
    and the two index arrays: the host operations before the call, read back, are a format change of a scatter whose
    dimension record, zero start matrix, index pairs (each index wrapped by 256 when negative, rows beside columns)
    and updates are the reference's, term by term. -/
theorem weights_eq (c : Dev nD) :
    (V m c main_v15 : S256x256.Idx → EReal)
      = Cert.ReferenceIdeal.Read.val_main_v14 (F := Ideal) (m ((c : Thread nD τ).loc main_arg1))
          (m ((c : Thread nD τ).loc main_arg2)) (m ((c : Thread nD τ).loc main_arg3)) := by
  dsimp only [Gen.V, Gen.hostOps0]
  after_results
  refine (truncf_bf16_id _ _).trans ?_
  unfold Cert.ReferenceIdeal.Read.val_main_v14
  refine scatter_congr _ _ _ _ _ _ _ _ _ rfl rfl ?_ rfl
  rfl

end Cert.KernelIdeal.Weights

end
-- ==== Proof.RefProduct.lean ====
/-
  The reference's result is the product, entry by entry.

  The reference multiplies the whole of `X` by `W` in one host operation, whose entry at `i = (r, c)` over the extended
  reals is the sum over the one contracted coordinate `k` of the left operand at `(r, k)` times the right at `(k, c)`.
  That is the entry of `X · W` at `i`, with `W` whatever the scatter before it built.
-/
import proofs.«100735_j35381940584576_1_alg».proof.Proof.Gen.ReferenceIdeal.Read
import proofs.«100735_j35381940584576_1_alg».proof.Proof.MatSpec

noncomputable section

namespace Cert.ReferenceIdeal.RefValue

open Cert.ReferenceIdeal Cert.ReferenceIdeal.Gen Cert.ReferenceIdeal.Read Idealize.ShloMosaic Idealize.ShloMosaic.ValueIdx

/-- The reference's last stage, as a function of the arguments, is `X · W` with `W` the stage before it. -/
theorem result_eq (x0 : (⟨S500000x256, .f32⟩ : BufTy).Contents (Elt Ideal)) (x1 : (⟨S63488, .f32⟩ : BufTy).Contents (Elt Ideal))
    (x2 x3 : (⟨S63488, .i32⟩ : BufTy).Contents (Elt Ideal)) :
    val_main_v15 (F := Ideal) x0 x1 x2 x3 = MatSpec.prod x0 (val_main_v14 (F := Ideal) x1 x2 x3) := by
  funext i
  rw [val_main_v15_apply]
  refine MatSpec.prod_eq_of_factors x0 (val_main_v14 (F := Ideal) x1 x2 x3) i _ _ (fun k => ?_) (fun k => ?_)
  · exact congrArg x0 (funext fun a => Fin.ext (by match a with | ⟨0, _⟩ => rfl | ⟨1, _⟩ => rfl))
  · exact congrArg (val_main_v14 (F := Ideal) x1 x2 x3) (funext fun a => Fin.ext (by match a with | ⟨0, _⟩ => rfl | ⟨1, _⟩ => rfl))

end Cert.ReferenceIdeal.RefValue

end
-- ==== Proof.lean ====
/- The proof of `Cert.Claim`.

   Both programs first build a square matrix `W` of side 256 on the host: a zero matrix into which the 63488 weights
   are scattered at row and column indices taken from the two integer arguments (a negative index wrapped by adding
   256). They do this by the same operations on the same arguments, so the two matrices are one function of the
   arguments. The reference then multiplies the whole of `X` (500000 rows, 256 columns) by `W` in one operation. The
   kernel changes `W`'s float format — the identity on extended reals —, and multiplies `X` by it 5000 rows at a time
   over 100 grid points, each point changing its block's format (again the identity) and accumulating into zero.

   Over the extended reals the entry `(r, c)` of either result is the one finite sum `Σ_k X[r, k] · W[k, c]` over the
   256 shared coordinates: row `r` of the product reads only row `r` of `X`, so cutting `X` into blocks of rows changes
   nothing, and the blocks of rows cover the result. No law beyond "equal summands give equal sums" is used, so the
   precondition (finite inputs) is never opened.

   The three frames are the generated ones (the reference's is its generated run with the result dropped); the
   idealization rewrote no operation, so `preserves` is `True`. -/
import proofs.«100735_j35381940584576_1_alg».proof.Defs
import proofs.«100735_j35381940584576_1_alg».proof.Proof.Gen.Kernel
import proofs.«100735_j35381940584576_1_alg».proof.Proof.Gen.Kernel.Skeleton
import proofs.«100735_j35381940584576_1_alg».proof.Proof.Gen.Kernel.Launch
import proofs.«100735_j35381940584576_1_alg».proof.Proof.Gen.Kernel.Points
import proofs.«100735_j35381940584576_1_alg».proof.Proof.Gen.Kernel.Frame
import proofs.«100735_j35381940584576_1_alg».proof.Proof.Gen.KernelIdeal
import proofs.«100735_j35381940584576_1_alg».proof.Proof.Gen.KernelIdeal.Skeleton
import proofs.«100735_j35381940584576_1_alg».proof.Proof.Gen.KernelIdeal.Launch
import proofs.«100735_j35381940584576_1_alg».proof.Proof.Gen.KernelIdeal.Points
import proofs.«100735_j35381940584576_1_alg».proof.Proof.Gen.KernelIdeal.Frame
import proofs.«100735_j35381940584576_1_alg».proof.Proof.Gen.ReferenceIdeal
import proofs.«100735_j35381940584576_1_alg».proof.Proof.Gen.Pre_finite_inputs
import proofs.«100735_j35381940584576_1_alg».proof.Proof.Gen.KernelIdeal.Value
import proofs.«100735_j35381940584576_1_alg».proof.Proof.Gen.ReferenceIdeal.Run
import proofs.«100735_j35381940584576_1_alg».proof.Proof.Gen.ReferenceIdeal.Read
import proofs.«100735_j35381940584576_1_alg».proof.Proof.KernelValue
import proofs.«100735_j35381940584576_1_alg».proof.Proof.Weights
import proofs.«100735_j35381940584576_1_alg».proof.Proof.RefProduct
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments both programs end with `X · W` in their result arrays: the kernel's
    array is the product with the matrix its host code wrote, which is the reference's scatter stage of the same
    arguments, and the reference's last stage is the product with that stage. -/
theorem algebraic : Cert.algebraic_KernelIdeal_ReferenceIdeal := by
  intro m ρ m' ρ' _ hagree
  refine ⟨fun c => MatSpec.prod (m ((c.tc : Thread Cert.KernelIdeal.nD Cert.KernelIdeal.τ).loc Cert.KernelIdeal.main_arg0))
      (Cert.KernelIdeal.Gen.V m c Cert.KernelIdeal.main_v15), Cert.KernelIdeal.MatValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.RefValue.result_eq,
    (hagree c).1, (hagree c).2.1, (hagree c).2.2.1, (hagree c).2.2.2]
  exact congrArg (MatSpec.prod _) (Cert.KernelIdeal.Weights.weights_eq m c).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
